-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x2048x1 : Shape := ⟨4, ![256, 32, 2048, 1]⟩
abbrev S2048x100000 : Shape := ⟨2, ![2048, 100000]⟩
abbrev S256 : Shape := ⟨1, ![256]⟩
abbrev S_ : Shape := ⟨0, ![]⟩

class Facts : Prop where
  bcast_S_S256x32x2048x1 : S_.BroadcastsInDim S256x32x2048x1 (![] : Fin 0 → Fin S256x32x2048x1.rank)
  reducesTo_S256x32x2048x1_S_d0_1_2_3 : S256x32x2048x1.ReducesTo [0, 1, 2, 3] S_
  h_S_ : 0 < S_.numel
  bcast_S_S2048x100000 : S_.BroadcastsInDim S2048x100000 (![] : Fin 0 → Fin S2048x100000.rank)
  reducesTo_S2048x100000_S_d0_1 : S2048x100000.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x32x2048x1 .f32) (main_arg1 : FVec F S2048x100000 .f32) (main_arg2 : IVec S256 32) : IVec S_ 1 :=
  let main_v0 : FVec F S256x32x2048x1 .f32 := Host.absf main_arg0
  let main_cst : FVec F S_ .f32 := constant S_ .f32 0x7F800000#32
  let main_v1 : FVec F S256x32x2048x1 .f32 := broadcastInDim S256x32x2048x1 ![] bcast_S_S256x32x2048x1 main_cst
  let main_v2 : IVec S256x32x2048x1 1 := cmpf .olt main_v0 main_v1
  let main_c : IVec S_ 1 := constantI S_ 1 1#1
  let main_v3 : IVec S_ 1 := (fun x v => Host.reduce IntOp.andi x v reducesTo_S256x32x2048x1_S_d0_1_2_3 h_S_) main_v2 main_c
  let main_v4 : FVec F S2048x100000 .f32 := Host.absf main_arg1
  let main_cst_0 : FVec F S_ .f32 := constant S_ .f32 0x7F800000#32
  let main_v5 : FVec F S2048x100000 .f32 := broadcastInDim S2048x100000 ![] bcast_S_S2048x100000 main_cst_0
  let main_v6 : IVec S2048x100000 1 := cmpf .olt main_v4 main_v5
  let main_c_1 : IVec S_ 1 := constantI S_ 1 1#1
  let main_v7 : IVec S_ 1 := (fun x v => Host.reduce IntOp.andi x v reducesTo_S2048x100000_S_d0_1 h_S_) main_v6 main_c_1
  let main_v8 : IVec S_ 1 := andi main_v3 main_v7
  let main_c_2 : IVec S_ 32 := constantI S_ 32 4294867296#32
  let main_v9 : IVec S256 32 := broadcastInDim S256 ![] bcast_S_S256 main_c_2
  let main_v10 : IVec S256 1 := cmpi .sge main_arg2 main_v9
  let main_c_3 : IVec S_ 32 := constantI S_ 32 100000#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Kernel.lean ====
abbrev S256x32x2048x1 : Shape := ⟨4, ![256, 32, 2048, 1]⟩
abbrev S2048x100000 : Shape := ⟨2, ![2048, 100000]⟩
abbrev S256 : Shape := ⟨1, ![256]⟩
abbrev S_ : Shape := ⟨0, ![]⟩
abbrev S256x1 : Shape := ⟨2, ![256, 1]⟩
abbrev S1 : Shape := ⟨1, ![1]⟩
abbrev S1x1 : Shape := ⟨2, ![1, 1]⟩
abbrev S2048x256 : Shape := ⟨2, ![2048, 256]⟩
abbrev S256x2048 : Shape := ⟨2, ![256, 2048]⟩
abbrev S256x32x2048 : Shape := ⟨3, ![256, 32, 2048]⟩
abbrev S2x1x1 : Shape := ⟨3, ![2, 1, 1]⟩
abbrev S32x32x2048 : Shape := ⟨3, ![32, 32, 2048]⟩
abbrev S32x2048 : Shape := ⟨2, ![32, 2048]⟩
abbrev S1x1x1 : Shape := ⟨3, ![1, 1, 1]⟩
abbrev S32x1x2048 : Shape := ⟨3, ![32, 1, 2048]⟩
abbrev S32x8x2048 : Shape := ⟨3, ![32, 8, 2048]⟩
abbrev S32x8 : Shape := ⟨2, ![32, 8]⟩
abbrev S32 : Shape := ⟨1, ![32]⟩
abbrev S32x1 : Shape := ⟨2, ![32, 1]⟩

abbrev nBuf : Space → Nat
  | .hbm => 31
  | .vmem => 7
  | .smem => 0
  | _ => 0

abbrev bufTy : (tb : Table) → Fin (tcTables nBuf tb) → BufTy
  | .hbm, ⟨0, _⟩ => ⟨S256x32x2048x1, .f32⟩
  | .hbm, ⟨1, _⟩ => ⟨S2048x100000, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S1, .i32⟩
  | .hbm, ⟨12, _⟩ => ⟨S_, .i32⟩
  | .hbm, ⟨13, _⟩ => ⟨S256x1, .i32⟩
  | .hbm, ⟨14, _⟩ => ⟨S256x1, .i1⟩
  | .hbm, ⟨15, _⟩ => ⟨S1x1, .i32⟩
  | .hbm, ⟨16, _⟩ => ⟨S256x1, .i32⟩
  | .hbm, ⟨17, _⟩ => ⟨S256x1, .i1⟩
  | .hbm, ⟨18, _⟩ => ⟨S256x1, .i1⟩
  | .hbm, ⟨19, _⟩ => ⟨S_, .i1⟩
  | .hbm, ⟨20, _⟩ => ⟨S256, .i1⟩
  | .hbm, ⟨21, _⟩ => ⟨S2048x256, .f32⟩
  | .hbm, ⟨22, _⟩ => ⟨S2048x256, .i1⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S256x2048, .f32⟩
  | .hbm, ⟨27, _⟩ => ⟨S256x32x2048, .f32⟩
  | .hbm, ⟨28, _⟩ => ⟨S2x1x1, .f32⟩
  | .hbm, ⟨29, _⟩ => ⟨S_, .f32⟩
  | .hbm, ⟨30, _⟩ => ⟨S_, .f32⟩
  | .local _ .vmem, ⟨0, _⟩ => ⟨S32x32x2048, .f32⟩
  | .local _ .vmem, ⟨1, _⟩ => ⟨S32x32x2048, .f32⟩
  | .local _ .vmem, ⟨2, _⟩ => ⟨S32x2048, .f32⟩
  | .local _ .vmem, ⟨3, _⟩ => ⟨S32x2048, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S256x32x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 : BitVec 32 :=
  let c0_i32_2 : BitVec 32 := 0#32
  let c8_i32 : BitVec 32 := 8#32
  let v9 : BitVec 32 := Scalar.muli c0_i32_2 c8_i32
  v9
def k0_off1 (c0_i32_2 : BitVec 32) : Fin 3 → Nat :=
  let c0_3 : Index := 0#32
  let c8_i32 : BitVec 32 := 8#32
  let v9 : BitVec 32 := Scalar.muli c0_i32_2 c8_i32
  let v10 : BitVec 32 := v9
  let v11 : Index := Scalar.indexCast v10
  let c0_4 : Index := 0#32
  ![0, v11.toNat, 0]
def k0_mult2 : BitVec 32 :=
  let c1_i32 : BitVec 32 := 1#32
  let c8_i32_8 : BitVec 32 := 8#32
  let v22 : BitVec 32 := Scalar.muli c1_i32 c8_i32_8
  v22
def k0_mult3 : BitVec 32 :=
  let c2_i32 : BitVec 32 := 2#32
  let c8_i32_14 : BitVec 32 := 8#32
  let v35 : BitVec 32 := Scalar.muli c2_i32 c8_i32_14
  v35
def k0_mult4 : BitVec 32 :=
  let c3_i32 : BitVec 32 := 3#32
  let c8_i32_20 : BitVec 32 := 8#32
  let v48 : BitVec 32 := Scalar.muli c3_i32 c8_i32_20
  v48
def k0_cond2 (i : grid0.Coords) : BitVec 1 :=
  let arg1 : BitVec 32 := BitVec.ofNat 32 (i 1).val
  let c3_i32_32 : BitVec 32 := 3#32
  let v67 : BitVec 1 := Scalar.cmpi .eq arg1 c3_i32_32
  let v68 : BitVec 32 := Scalar.extui v67
  let c0_i32_33 : BitVec 32 := 0#32
  let v69 : BitVec 1 := Scalar.cmpi .ne v68 c0_i32_33
  v69

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S2048x256_1 : S256.BroadcastsInDim S2048x256 (![1] : Fin 1 → Fin S2048x256.rank)
  bcast_S_S2048x256 : S_.BroadcastsInDim S2048x256 (![] : Fin 0 → Fin S2048x256.rank)
  transposes_S2048x256_S256x2048_1_0 : S2048x256.Transposes [1, 0] S256x2048
  shapeCasts_S256x32x2048x1_S256x32x2048 : S256x32x2048x1.ShapeCasts S256x32x2048
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  shapeCasts_S32x2048_S32x1x2048 : S32x2048.ShapeCasts S32x1x2048
  shapeCasts_S32x1x2048_S32x1x2048 : S32x1x2048.ShapeCasts S32x1x2048
  broadcasts_S32x1x2048_S32x8x2048 : S32x1x2048.Broadcasts S32x8x2048
  h_S32x8x2048 : 0 < S32x8x2048.numel
  shapeCasts_S32x8x2048_S32x8x2048 : S32x8x2048.ShapeCasts S32x8x2048
  reduces_S32x8x2048_S32x8 : S32x8x2048.Reduces [2] S32x8
  reduces_S32x8_S32 : S32x8.Reduces [1] S32
  shapeCasts_S32_S32x1 : S32.ShapeCasts S32x1
  reduces_S32x1_S1 : S32x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  gather_S2048x100000_S256x1_S2048x256_0_1_n_n_1_1_20481_wf : GatherDims.WF S2048x100000 S256x1 S2048x256 [0] [1] [] [1] [] 1 ![2048, 1]
  hrank0 : 0 < grid0.rank
  k0_mult1_dvd : 8 ∣ k0_mult1.toNat
  k0_off1_inb : ∀ (r : Fin 4), ∀ a, (k0_off1 (BitVec.ofNat 32 r.val)) a + S32x8x2048.size a ≤ S32x32x2048.size a
  k0_mult2_dvd : 8 ∣ k0_mult2.toNat
  k0_mult3_dvd : 8 ∣ k0_mult3.toNat
  k0_mult4_dvd : 8 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x2048.size a ≤ S256x32x2048.size a
  hwx0_0 : ∀ i : grid0.Coords, EltTy.bits .f32 = 32 ∨ (Rect.block (s := S256x32x2048) S32x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S256x2048.size a
  hwx0_1 : ∀ i : grid0.Coords, EltTy.bits .f32 = 32 ∨ (Rect.block (s := S256x2048) S32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def gather_S2048x100000_S256x1_S2048x256_0_1_n_n_1_1_20481 : GatherDims S2048x100000 S256x1 S2048x256 where
  offsetDims := [0]
  collapsedSliceDims := [1]
  operandBatchingDims := []
  startIndicesBatchingDims := []
  startIndexMap := [1]
  indexVectorDim := 1
  sliceSizes := ![2048, 1]
  wf := gather_S2048x100000_S256x1_S2048x256_0_1_n_n_1_1_20481_wf

abbrev win0_0 : Pipeline.Window sig grid0 :=
  Pipeline.Window.ofSpec (Memref.whole main_v2) S32x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x32x2048x1 : Shape := ⟨4, ![256, 32, 2048, 1]⟩
abbrev S2048x100000 : Shape := ⟨2, ![2048, 100000]⟩
abbrev S256 : Shape := ⟨1, ![256]⟩
abbrev S_ : Shape := ⟨0, ![]⟩
abbrev S256x1 : Shape := ⟨2, ![256, 1]⟩
abbrev S2048x256 : Shape := ⟨2, ![2048, 256]⟩
abbrev S256x2048 : Shape := ⟨2, ![256, 2048]⟩
abbrev S256x32x2048 : Shape := ⟨3, ![256, 32, 2048]⟩
abbrev S256x1x2048 : Shape := ⟨3, ![256, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S256x32x2048x1, .f32⟩
  | .hbm, ⟨1, _⟩ => ⟨S2048x100000, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S2048x256, .f32⟩
  | .hbm, ⟨12, _⟩ => ⟨S256x2048, .f32⟩
  | .hbm, ⟨13, _⟩ => ⟨S256x32x2048, .f32⟩
  | .hbm, ⟨14, _⟩ => ⟨S256x1x2048, .f32⟩
  | .hbm, ⟨15, _⟩ => ⟨S256x32x2048, .f32⟩
  | .hbm, ⟨16, _⟩ => ⟨S256x32x2048, .f32⟩
  | .hbm, ⟨17, _⟩ => ⟨S256x32x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S256x32x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  transposes_S2048x256_S256x2048_1_0 : S2048x256.Transposes [1, 0] S256x2048
  shapeCasts_S256x32x2048x1_S256x32x2048 : S256x32x2048x1.ShapeCasts S256x32x2048
  bcast_S256x2048_S256x1x2048_0_2 : S256x2048.BroadcastsInDim S256x1x2048 (![0, 2] : Fin 2 → Fin S256x1x2048.rank)
  bcast_S256x1x2048_S256x32x2048_0_1_2 : S256x1x2048.BroadcastsInDim S256x32x2048 (![0, 1, 2] : Fin 3 → Fin S256x32x2048.rank)
  reducesTo_S256x32x2048_S_d0_1_2 : S256x32x2048.ReducesTo [0, 1, 2] S_
  h_S_ : 0 < S_.numel
  gather_S2048x100000_S256x1_S2048x256_0_1_n_n_1_1_20481_wf : GatherDims.WF S2048x100000 S256x1 S2048x256 [0] [1] [] [1] [] 1 ![2048, 1]

variable [Facts₀]

def gather_S2048x100000_S256x1_S2048x256_0_1_n_n_1_1_20481 : GatherDims S2048x100000 S256x1 S2048x256 where
  offsetDims := [0]
  collapsedSliceDims := [1]
  operandBatchingDims := []
  startIndicesBatchingDims := []
  startIndexMap := [1]
  indexVectorDim := 1
  sliceSizes := ![2048, 1]
  wf := gather_S2048x100000_S256x1_S2048x256_0_1_n_n_1_1_20481_wf

class Facts : Prop extends Facts₀ where

variable [Facts]
-- ==== Proof.Pieces.lean ====
/-
  What one grid point does to the kernel's accumulator, read off the body's stores.

  At a grid point the body holds a block `x0` of 32 rows of the array ([32, 32, 2048]) and the matching block `x1`
  of the target ([32, 2048]). It loads the block in four chunks of eight positions of the middle axis (offsets 0, 8,
  16, 24), forms each chunk's sum of absolute deviations from the target broadcast along that axis, and adds the
  four sums, in order from zero, to the accumulator. At the first point of a core's four the accumulator is first
  reset to zero; at the last point the accumulator, after the addition, is multiplied by the scale and stored as
  the core's output. So, with `prev` the accumulator's contents on entry, every point leaves
  `pointAcc x0 x1 prev` in the accumulator — at a first point with `prev` the zero just stored — and a last point
  stores `k0_pay2` of that in the output.
-/
import proofs.«405690_j5033701671390_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Eight positions of the middle axis from offset `o` fit in the block when `o + 8 ≤ 32`. -/
theorem chunk_inb (o : Nat) (ho : o + 8 ≤ 32) :
    ∀ a, (![0, o, 0] : Fin 3 → Nat) a + (![32, 8, 2048] : Fin 3 → Nat) a ≤ S32x32x2048.size a := by
  intro a; fin_cases a
  · show 0 + 32 ≤ 32; omega
  · show o + 8 ≤ 32; exact ho
  · show 0 + 2048 ≤ 2048; omega

/-- The chunk of the block at offset `o` of the middle axis: all 32 rows, eight positions, all 2048 columns. -/
def chunkOf (x0 : Vec F S32x32x2048 .f32) (o : Nat) (ho : o + 8 ≤ 32) : Vec F S32x8x2048 .f32 :=
  View.ld x0 (Rect.unit ![0, o, 0] ![32, 8, 2048] (chunk_inb o ho))

/-- The accumulator after a point that entered with `prev`: `prev` plus the four chunks' sums, added in order. -/
def pointAcc (x0 : Vec F S32x32x2048 .f32) (x1 : Vec F S32x2048 .f32) (prev : Vec F S1x1x1 .f32) : Vec F S1x1x1 .f32 :=
  k0_pay1 (k0_pay4 x1) (k0_pay5 x1 (chunkOf x0 0 (by omega)) (chunkOf x0 8 (by omega))) (chunkOf x0 16 (by omega)) (chunkOf x0 24 (by omega)) prev

/-- A first point (reset, then accumulate) leaves the point's sums added to the zero it stored. -/
theorem sout_A (c : Dev nD) (i : grid0.Coords) (arg2 : Memref sig .tc .vmem S32x32x2048 .f32) (harg2 : arg2.IsWhole) (arg3 : Memref sig .tc .vmem S32x2048 .f32) (harg3 : arg3.IsWhole) (arg4 : Memref sig .tc .vmem S1x1x1 .f32) (harg4 : arg4.IsWhole) (arg5 : Memref sig .tc .vmem S1x1x1 .f32) (harg5 : arg5.IsWhole) (hc0 : cond0_0 i) (hc1 : ¬cond0_1 i)
    (x0 : Vec F S32x32x2048 .f32) (x1 : Vec F S32x2048 .f32) :
    sout0_A_0 c i arg2 harg2 arg3 harg3 arg4 harg4 arg5 harg5 hc0 hc1 x0 x1 = pointAcc x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, View.ld_unit_zero (S := S32x2048) hz2]
  rfl

/-- A middle point adds the point's sums to what the point before left. -/
theorem sout_B (c : Dev nD) (i : grid0.Coords) (arg2 : Memref sig .tc .vmem S32x32x2048 .f32) (harg2 : arg2.IsWhole) (arg3 : Memref sig .tc .vmem S32x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : ¬cond0_1 i)
    (x0 : Vec F S32x32x2048 .f32) (x1 : Vec F S32x2048 .f32) (xs0 : Vec F S1x1x1 .f32) :
    sout0_B_0 c i arg2 harg2 arg3 harg3 arg4 harg4 arg5 harg5 hc0 hc1 x0 x1 xs0 = pointAcc x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1x1) hz3]
  simp only [View.readAt_eq_ld, harg2.read_unread, harg3.read_unread, harg5.read_unread, View.ld_unit_zero (S := S32x2048) hz2, View.ld_unit_zero (S := S1x1x1) hz3]
  rfl

/-- A last point does the same to the accumulator … -/
theorem sout_C (c : Dev nD) (i : grid0.Coords) (arg2 : Memref sig .tc .vmem S32x32x2048 .f32) (harg2 : arg2.IsWhole) (arg3 : Memref sig .tc .vmem S32x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S32x32x2048 .f32) (x1 : Vec F S32x2048 .f32) (xs0 : Vec F S1x1x1 .f32) :
    sout0_C_0 c i arg2 harg2 arg3 harg3 arg4 harg4 arg5 harg5 hc0 hc1 x0 x1 xs0 = pointAcc x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1x1) hz3]
  simp only [View.readAt_eq_ld, harg2.read_unread, harg3.read_unread, harg5.read_unread, View.ld_unit_zero (S := S32x2048) hz2, View.ld_unit_zero (S := S1x1x1) hz3]
  rfl

/-- … and stores the scaled accumulator, read back after the addition, as the core's output. -/
theorem out_C (c : Dev nD) (i : grid0.Coords) (arg2 : Memref sig .tc .vmem S32x32x2048 .f32) (harg2 : arg2.IsWhole) (arg3 : Memref sig .tc .vmem S32x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S32x32x2048 .f32) (x1 : Vec F S32x2048 .f32) (xs0 : Vec F S1x1x1 .f32) :
    out0_C_2 c i arg2 harg2 arg3 harg3 arg4 harg4 arg5 harg5 hc0 hc1 x0 x1 xs0 = k0_pay2 (pointAcc x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x1) hz3, View.readCov_unit_zero (S := S1x1x1) _ hz3]
  simp only [View.readAt_eq_ld, harg2.read_unread, harg3.read_unread, harg5.read_unread, View.ld_unit_zero (S := S32x2048) hz2, View.ld_unit_zero (S := S1x1x1) hz3]
  rfl

end Cert.KernelIdeal.Pieces

end
-- ==== Proof.Spec.lean ====
/-
  The mathematics of the certificate, over the extended reals and free of both programs.

  Both programs compute the mean absolute deviation of an array `E` of shape [256, 32, 2048] from a target `T`
  of shape [256, 2048] that is constant along the middle axis, times 80:
      80 · (1 / 2^24) · ∑_{b,k,d} |E[b,k,d] − T[b,d]| .
  The reference takes the sum in one piece, divides by the count 2^24 = 256·32·2048 and multiplies by 80. The kernel
  cuts the rows `b` into eight blocks of 32, gives blocks 0..3 to one core and 4..7 to the other, inside a block
  sums the middle axis in four chunks of eight, multiplies each core's partial sum by the one constant
  5 / 2^20 = 80 / 2^24, and adds the two products.

  Every term |x − y| = max (x − y) (−(x − y)) is nonnegative on the extended reals, whatever x and y are, so all
  the sums are nonnegative; finite sums of extended reals may be regrouped freely (addition is commutative and
  associative), and multiplication by a constant distributes over a sum of NONNEGATIVE extended reals. That is all
  the algebra there is: no term is ever assumed finite.
-/
import Idealize.ShloMosaic.PureOps.Ideal
import Idealize.ShloMosaic.Lib.ValueIdx

noncomputable section

namespace Cert.AbsDev

open Idealize.ShloMosaic Idealize.ShloMosaic.ValueIdx

/-- The absolute deviation |x − y| as both programs compute it: the larger of the difference and its negation. -/
def dev (x y : EReal) : EReal := max (x - y) (-(x - y))

/-- It is nonnegative at every pair of extended reals, the infinities included. -/
theorem dev_nonneg (x y : EReal) : 0 ≤ dev x y := by
  unfold dev
  rcases le_total 0 (x - y) with h | h
  · exact le_max_of_le_left h
  · exact le_max_of_le_right (EReal.neg_nonneg.mpr h)

/-- The array's shape, the target's, and the shapes of a block of 32 rows of each. -/
abbrev SE : Shape := ⟨3, ![256, 32, 2048]⟩
abbrev ST : Shape := ⟨2, ![256, 2048]⟩
abbrev SX : Shape := ⟨3, ![32, 32, 2048]⟩
abbrev SY : Shape := ⟨2, ![32, 2048]⟩

/-- The total deviation of the array from the target. -/
def total (E : SE.Idx → EReal) (T : ST.Idx → EReal) : EReal :=
  ∑ b : Fin 256, ∑ k : Fin 32, ∑ d : Fin 2048, dev (E (ix3 b k d)) (T (ix2 b d))

/-- The total deviation inside one block of 32 rows. -/
def blockTotal (X : SX.Idx → EReal) (Y : SY.Idx → EReal) : EReal :=
  ∑ b : Fin 32, ∑ k : Fin 32, ∑ d : Fin 2048, dev (X (ix3 b k d)) (Y (ix2 b d))

theorem total_nonneg (E : SE.Idx → EReal) (T : ST.Idx → EReal) : 0 ≤ total E T := by
  unfold total
  exact Finset.sum_nonneg fun b _ => Finset.sum_nonneg fun k _ => Finset.sum_nonneg fun d _ => dev_nonneg _ _

theorem blockTotal_nonneg (X : SX.Idx → EReal) (Y : SY.Idx → EReal) : 0 ≤ blockTotal X Y := by
  unfold blockTotal
  exact Finset.sum_nonneg fun b _ => Finset.sum_nonneg fun k _ => Finset.sum_nonneg fun d _ => dev_nonneg _ _

/-- Row `b` of block `t` is row 32·t + b of the array. -/
def row (t : Fin 8) (b : Fin 32) : Fin 256 := ⟨32 * t.val + b.val, by have := t.isLt; have := b.isLt; omega⟩

/-- Position `k` of chunk `c` of the middle axis is position 8·c + k. -/
def lane (c : Fin 4) (k : Fin 8) : Fin 32 := ⟨8 * c.val + k.val, by have := c.isLt; have := k.isLt; omega⟩

/-- Block `t` of the array and of the target. -/
def rowsE (E : SE.Idx → EReal) (t : Fin 8) : SX.Idx → EReal := fun y => E (ix3 (row t (y 0)) (y 1) (y 2))
def rowsT (T : ST.Idx → EReal) (t : Fin 8) : SY.Idx → EReal := fun y => T (ix2 (row t (y 0)) (y 1))

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the 256 rows is the sum over the eight blocks of the sums over each block's 32 rows: the pair
    (t, b) ↦ 32·t + b is a bijection from Fin 8 × Fin 32 onto Fin 256. -/
private theorem sum_rows {M : Type*} [AddCommMonoid M] (g : Fin 256 → M) :
    ∑ b, g b = ∑ t : Fin 8, ∑ b : Fin 32, g (row t b) := by
  refine (Equiv.sum_comp (finProdFinEquiv (m := 8) (n := 32)) (g : Fin (8 * 32) → M)).symm.trans ?_
  rw [Fintype.sum_prod_type]
  refine Finset.sum_congr rfl fun t _ => Finset.sum_congr rfl fun b _ => ?_
  congr 1
  exact Fin.ext (Nat.add_comm _ _)

/-- The rows regrouped: the total is the sum of the eight blocks' totals. -/
theorem total_eq_sum_blocks (E : SE.Idx → EReal) (T : ST.Idx → EReal) :
    total E T = ∑ t : Fin 8, blockTotal (rowsE E t) (rowsT T t) := by
  unfold total blockTotal
  rw [sum_rows]
  rfl

/-- One chunk of a block: eight positions of the middle axis, summed innermost axis first, then the eight
    positions, then the 32 rows — the order the kernel's three reductions take. -/
def chunk (X : SX.Idx → EReal) (Y : SY.Idx → EReal) (c : Fin 4) : EReal :=
  ∑ a : Fin 32, ∑ k : Fin 8, ∑ d : Fin 2048, dev (X (ix3 a (lane c k) d)) (Y (ix2 a d))

/-- A sum over the 32 positions of the middle axis is the sum over the four chunks of the sums over each chunk's
    eight positions: the pair (c, k) ↦ 8·c + k is a bijection from Fin 4 × Fin 8 onto Fin 32. -/
private theorem sum_lanes {M : Type*} [AddCommMonoid M] (g : Fin 32 → M) :
    ∑ k, g k = ∑ c : Fin 4, ∑ k : Fin 8, g (lane c k) := by
  refine (Equiv.sum_comp (finProdFinEquiv (m := 4) (n := 8)) (g : Fin (4 * 8) → M)).symm.trans ?_
  rw [Fintype.sum_prod_type]
  refine Finset.sum_congr rfl fun c _ => Finset.sum_congr rfl fun k _ => ?_
  congr 1
  exact Fin.ext (Nat.add_comm _ _)

/-- The middle axis regrouped: a block's total is its four chunks added in order from zero. -/
theorem blockTotal_eq_chunks (X : SX.Idx → EReal) (Y : SY.Idx → EReal) :
    blockTotal X Y = (((0 + chunk X Y 0) + chunk X Y 1) + chunk X Y 2) + chunk X Y 3 := by
  calc blockTotal X Y
      = ∑ b : Fin 32, ∑ c : Fin 4, ∑ k : Fin 8, ∑ d : Fin 2048, dev (X (ix3 b (lane c k) d)) (Y (ix2 b d)) :=
        Finset.sum_congr rfl fun b _ => sum_lanes (fun k => ∑ d : Fin 2048, dev (X (ix3 b k d)) (Y (ix2 b d)))
    _ = ∑ c : Fin 4, chunk X Y c := Finset.sum_comm
    _ = (((0 + chunk X Y 0) + chunk X Y 1) + chunk X Y 2) + chunk X Y 3 := by
        rw [Fin.sum_univ_four, zero_add]

/-! ## The three constants -/

/-- The kernel's scale, 80 / 2^24 = 5 / 2^20, is a dyadic rational and so an exact f32. -/
theorem ofBits_scale : Ideal.ofBits .f32 0x36A00000#32 = ((5 / 1048576 : ℝ) : EReal) := by
  simp [Ideal.ofBits, Ideal.ieee, -EReal.coe_mul]; norm_num

/-- The reference's count, 2^24. -/
theorem ofBits_count : Ideal.ofBits .f32 0x4B800000#32 = ((16777216 : ℝ) : EReal) := by
  simp [Ideal.ofBits, Ideal.ieee, -EReal.coe_mul]; norm_num

/-- The reference's weight, 80. -/
theorem ofBits_weight : Ideal.ofBits .f32 0x42A00000#32 = ((80 : ℝ) : EReal) := by
  simp [Ideal.ofBits, Ideal.ieee, -EReal.coe_mul]; norm_num

/-- THE LAW that joins the two programs: for nonnegative partial sums, scaling each by 5 / 2^20 and adding is
    dividing the whole by 2^24 and multiplying by 80. -/
theorem scale_law (S0 S1 : EReal) (h0 : 0 ≤ S0) (h1 : 0 ≤ S1) :
    S0 * Ideal.ofBits .f32 0x36A00000#32 + S1 * Ideal.ofBits .f32 0x36A00000#32
      = Ideal.div (S0 + S1) (Ideal.ofBits .f32 0x4B800000#32) * Ideal.ofBits .f32 0x42A00000#32 := by
  have hc : (5 / 1048576 : ℝ) = 1 / 16777216 * 80 := by norm_num
  rw [ofBits_scale, ofBits_count, ofBits_weight, ← EReal.right_distrib_of_nonneg h0 h1,
    Ideal.div_coe (by norm_num : (16777216 : ℝ) ≠ 0), mul_assoc, ← EReal.coe_mul, hc]

end Cert.AbsDev

end
-- ==== Proof.PointValue.lean ====
/-
  One grid point's arithmetic at the extended reals.

  With every float operation exact, the three nested reductions of a chunk ([32, 8, 2048] → [32, 8] → [32] →
  [1]) are the triple sum over the chunk's coordinates; the target broadcast along the middle axis reads the
  target's row and column; a chunk loaded at offset 8·c reads the block at positions 8·c + k. So the point adds to
  the accumulator the four chunks' sums in order from zero, which is the block's total deviation, and the final
  multiplication is by the scale constant.
-/
import proofs.«405690_j5033701671390_3_alg».proof.Proof.Pieces
import proofs.«405690_j5033701671390_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.PointValue

open Cert.KernelIdeal Cert.KernelIdeal.Gen Cert.KernelIdeal.Pieces Cert.AbsDev
open Idealize.ShloMosaic Idealize.ShloMosaic.ValueIdx

/-- Three nested sums — over the columns, then the eight positions, then the 32 rows — of a [32, 8, 2048] vector,
    through the two unit-axis reshapes between them, are the triple sum over its coordinates. -/
theorem reduce3 (w : FVec Ideal S32x8x2048 .f32)
    (h2 : S32x8x2048.Reduces [2] S32x8) (h1 : S32x8.Reduces [1] S32) (h0 : S32x1.Reduces [0] S1)
    (c1 : S32.ShapeCasts S32x1) (c0 : S1.ShapeCasts S1x1)
    (hφ : FKind.Formats .f32) (hacc : (0x00000000#32 : BitVec 32) = FKind.add.neutral .f32 hφ) (z : S1x1.Idx) :
    shapeCast S1x1 (multiReduction .add [0] S1 (shapeCast S32x1 (multiReduction .add [1] S32
        (multiReduction .add [2] S32x8 w 0x00000000#32 h2 hφ hacc) 0x00000000#32 h1 hφ hacc) c1) 0x00000000#32 h0 hφ hacc) c0 z
      = ∑ a : Fin 32, ∑ k : Fin 8, ∑ d : Fin 2048, w (ix3 a k d) := by
  refine (shapeCast_apply _ c0 z (ix1 0) ?_).trans ?_
  · rw [Shape.rowMajor_val_one, Shape.rowMajor_val_two]
    have h0' : (z 0).val < 1 := (z 0).isLt
    have h1' : (z 1).val < 1 := (z 1).isLt
    show (0 : Nat) = (z 0).val * 1 + (z 1).val
    omega
  refine (Ideal.multiReduction_add_single _ _ h0 hφ hacc (ix1 0)).trans ?_
  show ∑ a : Fin 32, _ = _
  refine Finset.sum_congr rfl fun a _ => ?_
  refine (shapeCast_apply _ c1 (h0.lift (ix1 0) a) (ix1 a) ?_).trans ?_
  · rw [Shape.rowMajor_val_one, Shape.rowMajor_val_two]
    show a.val = a.val * 1 + 0
    omega
  refine (Ideal.multiReduction_add_single _ _ h1 hφ hacc (ix1 a)).trans ?_
  show ∑ k : Fin 8, _ = _
  refine Finset.sum_congr rfl fun k _ => ?_
  refine (Ideal.multiReduction_add_single _ _ h2 hφ hacc (h1.lift (ix1 a) k)).trans ?_
  show ∑ d : Fin 2048, _ = _
  refine Finset.sum_congr rfl fun d _ => ?_
  congr 1
  funext ax
  apply Fin.ext
  fin_cases ax <;> rfl

/-- The target broadcast along the middle axis reads the target at the row and the column. -/
theorem pay4_apply (x1 : Vec Ideal S32x2048 .f32) (a : Fin 32) (k : Fin 8) (d : Fin 2048) :
    k0_pay4 (F := Ideal) x1 (ix3 a k d) = x1 (ix2 a d) := by
  unfold k0_pay4
  refine (broadcastTo_apply _ broadcasts_S32x1x2048_S32x8x2048 (ix3 a k d) (ix3 a 0 d) ?_).trans ?_
  · intro ax
    fin_cases ax
    · show a.val = if (32 : Nat) = 1 then 0 else a.val
      rw [if_neg (by decide)]
    · show (0 : Nat) = if (1 : Nat) = 1 then 0 else k.val
      rw [if_pos rfl]
    · show d.val = if (2048 : Nat) = 1 then 0 else d.val
      rw [if_neg (by decide)]
  rw [shapeCast_self]
  refine (shapeCast_apply _ shapeCasts_S32x2048_S32x1x2048 (ix3 a 0 d) (ix2 a d) ?_).trans ?_
  · rw [Shape.rowMajor_val_two, Shape.rowMajor_val_three]
    show a.val * 2048 + d.val = (a.val * 1 + 0) * 2048 + d.val
    omega
  rw [shapeCast_self]

/-- A chunk loaded at offset `o` of the middle axis reads the block at position `o + k`. -/
theorem chunkOf_apply (x0 : Vec Ideal S32x32x2048 .f32) (o : Nat) (ho : o + 8 ≤ 32) (a : Fin 32) (k : Fin 8) (d : Fin 2048) :
    chunkOf x0 o ho (ix3 a k d) = x0 (ix3 a ⟨o + k.val, by have := k.isLt; omega⟩ d) := by
  unfold chunkOf
  show x0 ((Rect.unit (s := S32x32x2048) ![0, o, 0] ![32, 8, 2048] (chunk_inb o ho)).emb (ix3 a k d)) = _
  congr 1
  funext ax
  apply Fin.ext
  fin_cases ax
  · show 0 + 1 * a.val = a.val; omega
  · show o + 1 * k.val = o + k.val; omega
  · show 0 + 1 * d.val = d.val; omega

/-- One chunk's contribution: the absolute deviations of the chunk from the broadcast target, summed over
    columns, positions and rows. -/
theorem chunkSum (x0 : Vec Ideal S32x32x2048 .f32) (x1 : Vec Ideal S32x2048 .f32) (o : Nat) (ho : o + 8 ≤ 32)
    (cS : S32x8x2048.ShapeCasts S32x8x2048)
    (h2 : S32x8x2048.Reduces [2] S32x8) (h1 : S32x8.Reduces [1] S32) (h0 : S32x1.Reduces [0] S1)
    (c1 : S32.ShapeCasts S32x1) (c0 : S1.ShapeCasts S1x1)
    (hφ : FKind.Formats .f32) (hacc : (0x00000000#32 : BitVec 32) = FKind.add.neutral .f32 hφ) (z : S1x1.Idx) :
    shapeCast S1x1 (multiReduction .add [0] S1 (shapeCast S32x1 (multiReduction .add [1] S32
        (multiReduction .add [2] S32x8 (absf (subf (shapeCast S32x8x2048 (chunkOf x0 o ho) cS) (k0_pay4 (F := Ideal) x1)))
          0x00000000#32 h2 hφ hacc) 0x00000000#32 h1 hφ hacc) c1) 0x00000000#32 h0 hφ hacc) c0 z
      = ∑ a : Fin 32, ∑ k : Fin 8, ∑ d : Fin 2048,
          dev (x0 (ix3 a ⟨o + k.val, by have := k.isLt; omega⟩ d)) (x1 (ix2 a d)) := by
  refine (reduce3 _ h2 h1 h0 c1 c0 hφ hacc z).trans ?_
  refine Finset.sum_congr rfl fun a _ => Finset.sum_congr rfl fun k _ => Finset.sum_congr rfl fun d _ => ?_
  show max ((shapeCast S32x8x2048 (chunkOf x0 o ho) cS) (ix3 a k d) - k0_pay4 (F := Ideal) x1 (ix3 a k d))
      (-((shapeCast S32x8x2048 (chunkOf x0 o ho) cS) (ix3 a k d) - k0_pay4 (F := Ideal) x1 (ix3 a k d))) = _
  rw [shapeCast_self, chunkOf_apply, pay4_apply]
  rfl

/-- The value a first point resets the accumulator to is zero. -/
theorem pay3_apply (y : S1x1x1.Idx) : k0_pay3 (F := Ideal) y = 0 := by
  unfold k0_pay3
  rw [shapeCast_self]
  exact Ideal.ofBits_zero_f32

/-- A last point's output is the accumulator times the scale constant. -/
theorem pay2_apply (v : Vec Ideal S1x1x1 .f32) (y : S1x1x1.Idx) :
    k0_pay2 (F := Ideal) v y = v y * Ideal.ofBits .f32 0x36A00000#32 := by
  unfold k0_pay2
  rfl

/-- THE POINT: it adds the block's total deviation to the accumulator. -/
theorem pointAcc_apply (x0 : Vec Ideal S32x32x2048 .f32) (x1 : Vec Ideal S32x2048 .f32) (prev : Vec Ideal S1x1x1 .f32)
    (y : S1x1x1.Idx) : pointAcc x0 x1 prev y = prev y + blockTotal x0 x1 := by
  rw [blockTotal_eq_chunks]
  unfold pointAcc k0_pay1 k0_pay5
  rw [shapeCast_self]
  show prev y + _ = _
  congr 1
  refine (shapeCast_apply _ shapeCasts_S1x1_S1x1x1 y (ix2 0 0) ?_).trans ?_
  · rw [Shape.rowMajor_val_two, Shape.rowMajor_val_three]
    have h0' : (y 0).val < 1 := (y 0).isLt
    have h1' : (y 1).val < 1 := (y 1).isLt
    have h2' : (y 2).val < 1 := (y 2).isLt
    show 0 * 1 + 0 = ((y 0).val * 1 + (y 1).val) * 1 + (y 2).val
    omega
  dsimp only
  simp only [addf_apply, broadcast_apply]
  refine congrArg₂ (· + ·) (congrArg₂ (· + ·) (congrArg₂ (· + ·) (congrArg₂ (· + ·) ?_ ?_) ?_) ?_) ?_
  · exact Ideal.ofBits_zero_f32
  · exact chunkSum x0 x1 0 _ _ _ _ _ _ _ _ _ _
  · exact chunkSum x0 x1 8 _ _ _ _ _ _ _ _ _ _
  · exact chunkSum x0 x1 16 _ _ _ _ _ _ _ _ _ _
  · exact chunkSum x0 x1 24 _ _ _ _ _ _ _ _ _ _

end Cert.KernelIdeal.PointValue

end
-- ==== Proof.KValue.lean ====
/-
  What the kernel's output array holds after the region, at the extended reals.

  The grid has eight points; point n works on block n of the rows. Points 0..3 belong to the first core and 4..7
  to the second: the accumulator restarts from zero at points 0 and 4 and otherwise grows by the point's block
  total, so after point n it holds the RUNNING SUM of the block totals of its core's points up to n. The output
  block of a core is written once, at its last point (3 and 7), with the running sum times the scale. The output
  array [2, 1, 1] therefore ends holding, at core p, the running sum after point 4·p + 3 times the scale.
-/
import proofs.«405690_j5033701671390_3_alg».proof.Proof.PointValue
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Pieces Cert.KernelIdeal.PointValue Cert.AbsDev
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two input blocks a point holds, at their literal shapes. -/
abbrev xblk (c : Dev nD) (t : Fin cfg0.N) : Vec Ideal S32x32x2048 .f32 := iblk m c 0 t
abbrev yblk (c : Dev nD) (t : Fin cfg0.N) : Vec Ideal S32x2048 .f32 := iblk m c 1 t

/-- The block total of point `n`. -/
def ptTotal (c : Dev nD) (n : ℕ) (h : n < cfg0.N) : EReal := blockTotal (xblk m c ⟨n, h⟩) (yblk m c ⟨n, h⟩)

/-- The running sum after point `n`: restarted from zero at the first point of each core's four. -/
def run (c : Dev nD) : (n : ℕ) → n < cfg0.N → EReal
  | 0, h => 0 + ptTotal m c 0 h
  | n + 1, h => if (n + 1) % 4 = 0 then 0 + ptTotal m c (n + 1) h
      else run c n (Nat.lt_of_succ_lt h) + ptTotal m c (n + 1) h

/-- The accumulator after point `n` holds the running sum — by induction on the point. -/
theorem acc_eq (c : Dev nD) : ∀ (n : ℕ) (h : n < cfg0.N), (outsAt0 m c n h).2 = fun _ => run m c n h
  | 0, h => by
    show (outsAt0 m c (⟨0, h⟩ : Fin cfg0.N).val (⟨0, h⟩ : Fin cfg0.N).isLt).2 = _
    rw [outsAt0_A m c ⟨0, h⟩ rfl (show ¬(0 : ℕ) % 4 = 3 by decide)]
    dsimp only
    refine (sout_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (xblk m c ⟨0, h⟩) (yblk m c ⟨0, h⟩)).trans ?_
    funext y
    refine (pointAcc_apply (xblk m c ⟨0, h⟩) (yblk m c ⟨0, h⟩) _ y).trans ?_
    rw [pay3_apply]
    rfl
  | n + 1, h => by
    have hN : cfg0.N = 8 := N_0
    show (outsAt0 m c (⟨n + 1, h⟩ : Fin cfg0.N).val (⟨n + 1, h⟩ : Fin cfg0.N).isLt).2 = _
    by_cases h0 : (n + 1) % 4 = 0
    · have h1 : ¬(n + 1) % 4 = 3 := by omega
      rw [outsAt0_A m c ⟨n + 1, h⟩ h0 h1]
      dsimp only
      refine (sout_A (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (xblk m c ⟨n + 1, h⟩) (yblk m c ⟨n + 1, h⟩)).trans ?_
      funext y
      refine (pointAcc_apply (xblk m c ⟨n + 1, h⟩) (yblk m c ⟨n + 1, h⟩) _ y).trans ?_
      rw [pay3_apply, run, if_pos h0]
      rfl
    · by_cases h1 : (n + 1) % 4 = 3
      · rw [outsAt0_C m c ⟨n + 1, h⟩ h0 h1]
        dsimp only
        refine (sout_C (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (xblk m c ⟨n + 1, h⟩) (yblk m c ⟨n + 1, h⟩)
          (outsAt0 m c n (Nat.lt_of_succ_lt h)).2).trans ?_
        funext y
        refine (pointAcc_apply (xblk m c ⟨n + 1, h⟩) (yblk m c ⟨n + 1, h⟩) _ y).trans ?_
        rw [run, if_neg h0, acc_eq c n (Nat.lt_of_succ_lt h)]
        rfl
      · rw [outsAt0_B m c ⟨n + 1, h⟩ h0 h1]
        dsimp only
        refine (sout_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (xblk m c ⟨n + 1, h⟩) (yblk m c ⟨n + 1, h⟩)
          (outsAt0 m c n (Nat.lt_of_succ_lt h)).2).trans ?_
        funext y
        refine (pointAcc_apply (xblk m c ⟨n + 1, h⟩) (yblk m c ⟨n + 1, h⟩) _ y).trans ?_
        rw [run, if_neg h0, acc_eq c n (Nat.lt_of_succ_lt h)]
        rfl

/-- A last point stores the running sum times the scale. -/
theorem out_eq (c : Dev nD) (t : Fin cfg0.N) (h1 : t.val % 4 = 3) :
    (outsAt0 m c t.val t.isLt).1 = fun _ => run m c t.val t.isLt * Ideal.ofBits .f32 0x36A00000#32 := by
  have h0 : ¬t.val % 4 = 0 := by omega
  obtain ⟨n, h⟩ := t
  cases n with
  | zero => exact absurd h1 (show ¬(0 : ℕ) % 4 = 3 by decide)
  | succ n =>
    rw [outsAt0_C m c ⟨n + 1, h⟩ h0 h1]
    dsimp only
    refine (out_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) _ _ (xblk m c ⟨n + 1, h⟩) (yblk m c ⟨n + 1, h⟩)
      (outsAt0 m c n (Nat.lt_of_succ_lt h)).2).trans ?_
    funext y
    refine (pay2_apply _ y).trans ?_
    congr 1
    refine (pointAcc_apply (xblk m c ⟨n + 1, h⟩) (yblk m c ⟨n + 1, h⟩) _ y).trans ?_
    rw [run, if_neg h0, acc_eq m c n (Nat.lt_of_succ_lt h)]
    rfl

theorem lt3 : 3 < cfg0.N := by rw [show cfg0.N = 8 from N_0]; decide
theorem lt7 : 7 < cfg0.N := by rw [show cfg0.N = 8 from N_0]; decide

/-- The output array after the region: at each core, the running sum after the core's last point, times the scale. -/
def outArr (c : Dev nD) : Buf (Elt Ideal) ((c : Thread nD τ).loc main_v3) := fun i : S2x1x1.Idx =>
  (if (i 0).val = 0 then run m c 3 lt3 else run m c 7 lt7) * Ideal.ofBits .f32 0x36A00000#32

/-- The two write-backs, at points 3 and 7, write the output array's two blocks. -/
theorem flushed_eq (c : Dev nD) (t : Fin cfg0.N) (hf : (cfg0.win 2).flush t = true) :
    (dats m 0 c).flushed 2 t = ((cfg0.win 2).blk t).view.read (Elt Ideal) (outArr m c) := by
  have h3 : t.val % 4 = 3 := (flush0_2 t).mp hf
  show (cfg0.win 2).cut (grid0.coords t) ((dats m 0 c).after 2 t) = _
  rw [after0_2, out_eq m c t h3]
  have ht : t = t0_3 ∨ t = t0_7 := by
    rcases fin_N0 t with rfl | rfl | rfl | rfl | rfl | rfl | rfl | rfl
    all_goals first | exact Or.inl rfl | exact Or.inr rfl | exact absurd h3 (by decide)
  rcases ht with rfl | rfl
  · funext y
    rw [View.read_apply]
    have e : ((((cfg0.win 2).blk t0_3).view.emb y : S2x1x1.Idx) 0).val = 0 := by
      show win0_2.index t0_3 0 * 1 + 1 * (y 0).val = 0
      have hx : win0_2.xsize (grid0.coords t0_3) 0 = 1 := by decide +kernel
      have hi : win0_2.index t0_3 0 = 0 := by decide +kernel
      have hy : (y 0).val < win0_2.xsize (grid0.coords t0_3) 0 := (y 0).isLt
      omega
    show run m c 3 lt3 * _ = (if ((((cfg0.win 2).blk t0_3).view.emb y : S2x1x1.Idx) 0).val = 0 then _ else _) * _
    rw [if_pos e]
  · funext y
    rw [View.read_apply]
    have e : ((((cfg0.win 2).blk t0_7).view.emb y : S2x1x1.Idx) 0).val = 1 := by
      show win0_2.index t0_7 0 * 1 + 1 * (y 0).val = 1
      have hx : win0_2.xsize (grid0.coords t0_7) 0 = 1 := by decide +kernel
      have hi : win0_2.index t0_7 0 = 1 := by decide +kernel
      have hy : (y 0).val < win0_2.xsize (grid0.coords t0_7) 0 := (y 0).isLt
      omega
    show run m c 7 lt7 * _ = (if ((((cfg0.win 2).blk t0_7).view.emb y : S2x1x1.Idx) 0).val = 0 then _ else _) * _
    rw [if_neg (by rw [e]; decide)]

/-- The two written blocks cover the output array, so it ends holding `outArr`. -/
theorem final (c : Dev nD) : (dats m 0 c).arrAt 2 cfg0.N = outArr m c :=
  (dats m 0 c).arrAt_eq_of_cover 2 (outArr m c) (flushed_eq m c) fun i => by
    have hi0 : (i 0 : Nat) < 2 := (i 0).isLt
    have hi1 : (i 1 : Nat) < 1 := (i 1).isLt
    have hi2 : (i 2 : Nat) < 1 := (i 2).isLt
    by_cases hz : (i 0 : Nat) = 0
    ·
      refine ⟨t0_3, (flush0_2 t0_3).mpr (by decide), ?_⟩
      show i ∈ ((View.whole main_v3).slice (win0_2.rect t0_3)).set
      rw [View.set_slice_whole, Rect.mem_set_unit]
      intro a
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 1 from by decide +kernel]
        omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 1 from by decide +kernel]
        omega
      | ⟨2, _⟩ =>
        show win0_2.index t0_3 2 * win0_2.size 2 ≤ (i 2 : Nat) ∧ (i 2 : Nat) < win0_2.index t0_3 2 * win0_2.size 2 + win0_2.xsize (grid0.coords t0_3) 2
        rw [show win0_2.index t0_3 2 * win0_2.size 2 = 0 from by decide +kernel, show win0_2.xsize (grid0.coords t0_3) 2 = 1 from by decide +kernel]
        omega
    ·
      refine ⟨t0_7, (flush0_2 t0_7).mpr (by decide), ?_⟩
      show i ∈ ((View.whole main_v3).slice (win0_2.rect t0_7)).set
      rw [View.set_slice_whole, Rect.mem_set_unit]
      intro a
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 1 from by decide +kernel, show win0_2.xsize (grid0.coords t0_7) 0 = 1 from by decide +kernel]
        omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 1 from by decide +kernel]
        omega
      | ⟨2, _⟩ =>
        show win0_2.index t0_7 2 * win0_2.size 2 ≤ (i 2 : Nat) ∧ (i 2 : Nat) < win0_2.index t0_7 2 * win0_2.size 2 + win0_2.xsize (grid0.coords t0_7) 2
        rw [show win0_2.index t0_7 2 * win0_2.size 2 = 0 from by decide +kernel, show win0_2.xsize (grid0.coords t0_7) 2 = 1 from by decide +kernel]
        omega

/-- The kernel's result: the host's sum, from zero, of the output array's two entries. -/
def kres (c : Dev nD) : Buf (Elt Ideal) ((c : Thread nD τ).loc main_v4) :=
  Host.reduceAdd (outArr m c) (constant (F := Ideal) S_ .f32 0x00000000#32) reducesTo_S2x1x1_S_d0_1_2 h_S_

/-- The host operations after the region compute it from the output array. -/
theorem tail_eq (c : Dev nD) : Pipeline.afterTail₀ cfgs (dats m) 0 (V0 m) [hostOps1] c main_v4 = kres m c := by
  unfold Pipeline.afterTail₀
  show StableHlo.after hostOps1 _ (Proc.devRef .tc main_v4) = _
  after_results
  exact congrArg (fun z => Host.reduceAdd z (constant (F := Ideal) S_ .f32 0x00000000#32) reducesTo_S2x1x1_S_d0_1_2 h_S_)
    ((Pipeline.withArrays_arr spec0 launch0.win.arr_inj c _ _ 2).trans (final m c))

/-- At the extended reals the result is the two cores' scaled running sums, added. -/
theorem kres_apply (c : Dev nD) (i : S_.Idx) :
    kres m c i = run m c 3 lt3 * Ideal.ofBits .f32 0x36A00000#32 + run m c 7 lt7 * Ideal.ofBits .f32 0x36A00000#32 := by
  unfold kres
  simp only [Host.reduceAdd, Ideal.hostReduceAdd_def]
  refine (Ideal.hostReduceAdd_total reducesTo_S2x1x1_S_d0_1_2 (fun b => b.elim0) (outArr m c) _ i).trans ?_
  rw [sum_idx3]
  simp only [Fin.sum_univ_two, Fin.sum_univ_one]
  have z : constant (F := Ideal) S_ .f32 0x00000000#32 (Shape.Idx.first h_S_) = 0 := Ideal.ofBits_zero_f32
  have e0 : outArr m c (ix3 0 0 0) = run m c 3 lt3 * Ideal.ofBits .f32 0x36A00000#32 := by
    show (if (0 : ℕ) = 0 then run m c 3 lt3 else run m c 7 lt7) * _ = _
    rw [if_pos rfl]
  have e1 : outArr m c (ix3 1 0 0) = run m c 7 lt7 * Ideal.ofBits .f32 0x36A00000#32 := by
    show (if (1 : ℕ) = 0 then run m c 3 lt3 else run m c 7 lt7) * _ = _
    rw [if_neg (by decide)]
  rw [z, zero_add, e0, e1]

/-- The kernel's run, read: its result buffer ends at `kres`, its arguments as launched. -/
theorem run_value : θ_run defs (onTc (τ := τ) (main (F := Ideal))) ⟨m, fun _ => 0, ρ⟩ fun r => ∀ c : Dev nD,
      r.2.mem ((c.tc : Thread nD τ).loc main_v4) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.Entry.lean ====
/-
  What the kernel's region finds in its two operand arrays, at the extended reals.

  Before the region the kernel's host code reshapes `e` from [256, 32, 2048, 1] to [256, 32, 2048] and builds the
  target: with the wrapped index j[b] = (i[b] < 0 ? i[b] + 100000 : i[b]) it gathers column j[b] of `W` for every
  row, and keeps the gathered column only where 0 ≤ j[b] ≤ 99999 — elsewhere it substitutes a fill value — and
  transposes to [256, 2048]. The precondition bounds every index by −100000 ≤ i[b] < 100000, so the wrapped index
  always lies in [0, 99999]: the test never fails, the fill value is never chosen, and the target is exactly the
  transposed gather, which is the reference's own expression.
-/
import proofs.«405690_j5033701671390_3_alg».proof.Defs
import proofs.«405690_j5033701671390_3_alg».proof.Proof.Gen.KernelIdeal.Frame
import proofs.«405690_j5033701671390_3_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Entry

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- A rank-0 shape has one index. -/
private instance : Subsingleton Cert.Pre_finite_inputs.S_.Idx := ⟨fun a b => funext fun d => d.elim0⟩

/-- The precondition's third conjunct, read off: every index lies in [−100000, 100000). -/
theorem idx_range (hpre : Cert.Pre_KernelIdeal m) (c : Dev nD) (b : S256.Idx) :
    -100000 ≤ (m ((c.tc : Thread nD τ).loc main_arg2) b).toInt ∧ (m ((c.tc : Thread nD τ).loc main_arg2) b).toInt < 100000 := by
  -- the predicate is all ones; its last conjunct is the and-reduction of the two compares over all 256 entries
  have h := congrFun (hpre c) ValueIdx.ix0
  dsimp only [Cert.Pre_finite_inputs.fn] at h
  have h3 := (IntOp.andi_eq_one.1 h).2
  -- an and-reduction into one result that is 1 met a 1 at every entry
  have hb := Host.reduce_andi_all _ _ _ _ _ h3 b
  obtain ⟨h1, h2⟩ := IntOp.andi_eq_one.1 hb
  -- at entry b the compares are against the constants −100000 and 100000, as signed words
  have h1' : (4294867296#32 : BitVec 32).toInt ≤ (m ((c.tc : Thread nD τ).loc main_arg2) b).toInt := IntOp.cmpi_sge.1 h1
  have h2' : (m ((c.tc : Thread nD τ).loc main_arg2) b).toInt < (100000#32 : BitVec 32).toInt := IntOp.cmpi_slt.1 h2
  have e1 : (4294867296#32 : BitVec 32).toInt = -100000 := by decide
  have e2 : (100000#32 : BitVec 32).toInt = 100000 := by decide
  rw [e1] at h1'
  rw [e2] at h2'
  exact ⟨h1', h2'⟩

/-- The wrapped index vector: a negative index counts from the end. -/
def wrapped (x2 : IVec S256 32) : IVec S256 32 :=
  select (cmpi .slt x2 (broadcastInDim S256 ![] bcast_S_S256 (constantI S_ 32 0#32)))
    (addi x2 (broadcastInDim S256 ![] bcast_S_S256 (constantI S_ 32 100000#32))) x2

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- With −100000 ≤ i < 100000 the wrapped index lies in [0, 99999]: a negative i becomes i + 100000 ∈ [0, 100000)
    (the word addition does not wrap), a non-negative one is kept. -/
private theorem wrapped_range (x2 : IVec S256 32) (hx : ∀ b, -100000 ≤ (x2 b).toInt ∧ (x2 b).toInt < 100000) (b : S256.Idx) :
    0 ≤ (wrapped x2 b).toInt ∧ (wrapped x2 b).toInt ≤ 99999 := by
  obtain ⟨h1, h2⟩ := hx b
  have e : wrapped x2 b = Scalar.select (IntOp.cmpi .slt (x2 b) 0#32) (x2 b + 100000#32) (x2 b) := rfl
  have z : (0#32 : BitVec 32).toInt = 0 := by decide
  have k : (100000#32 : BitVec 32).toInt = 100000 := by decide
  rw [e]
  by_cases hneg : (x2 b).toInt < 0
  · rw [IntOp.cmpi_slt.2 (by rw [z]; exact hneg), select_one, BitVec.toInt_add, k]
    have : ((x2 b).toInt + 100000).bmod (2 ^ 32) = (x2 b).toInt + 100000 := by
      apply Int.bmod_eq_of_le <;> omega
    rw [this]; omega
  · have hc : IntOp.cmpi .slt (x2 b) 0#32 ≠ 1#1 := fun hh => hneg (by have := IntOp.cmpi_slt.1 hh; rwa [z] at this)
    have : Scalar.select (IntOp.cmpi .slt (x2 b) 0#32) (x2 b + 100000#32) (x2 b) = x2 b := if_neg hc
    rw [this]; omega

/-- The range test 0 ≤ j ≤ 99999 on the wrapped index, and-reduced over the unit axis. -/
private def mask (x2 : IVec S256 32) : IVec S256 1 :=
  Host.reduce IntOp.andi
    (andi (cmpi .sge (broadcastInDim S256x1 ![0] bcast_S256_S256x1_0 (wrapped x2)) (broadcastInDim S256x1 ![] bcast_S_S256x1 (constantI S_ 32 0#32)))
      (cmpi .sle (broadcastInDim S256x1 ![0] bcast_S256_S256x1_0 (wrapped x2))
        (broadcastInDim S256x1 ![0, 1] bcast_S1x1_S256x1_0_1 (broadcastInDim S1x1 ![1] bcast_S1_S1x1_1 (constantI S1 32 99999#32)))))
    (constantI S_ 1 1#1) reducesTo_S256x1_S256_d1 h_S_

/-- Under the range hypothesis the test holds at every row: the reduction starts at 1 and meets, at each entry, the two
    compares of a wrapped index in [0, 99999] against 0 and 99999. -/
private theorem mask_one (x2 : IVec S256 32) (hx : ∀ b, -100000 ≤ (x2 b).toInt ∧ (x2 b).toInt < 100000) (b : S256.Idx) :
    mask x2 b = 1#1 := by
  unfold mask
  rw [Host.reduce_eq_foldl]
  refine foldl_andi_one _ _ fun i _ => ?_
  refine IntOp.andi_eq_one.2 ⟨IntOp.cmpi_sge.2 ?_, IntOp.cmpi_sle.2 ?_⟩
  · exact (wrapped_range x2 hx _).1
  · exact (wrapped_range x2 hx _).2

/-- The first operand array is `e` with its unit axis dropped. -/
theorem V_e (c : Dev nD) :
    (V m c main_v2 : S256x32x2048.Idx → EReal)
      = shapeCast _ (m ((c.tc : Thread nD τ).loc main_arg0)) shapeCasts_S256x32x2048x1_S256x32x2048 := by
  dsimp only [Gen.V, Gen.V0]
  simp only [Gen.hostOps0, Gen.hostOps0_1, List.flatten_cons, List.flatten_nil, List.append_nil, List.cons_append, List.nil_append]
  after_results
  rfl

/-- The second operand array as the host operations leave it: the transposed selection, by the broadcast range test,
    between the gathered columns and the fill value. -/
private theorem V_tgt_raw (c : Dev nD) :
    (V m c main_v1 : S256x2048.Idx → EReal)
      = transpose S256x2048 [1, 0]
          (select (broadcastInDim S2048x256 ![1] bcast_S256_S2048x256_1 (mask (m ((c.tc : Thread nD τ).loc main_arg2))))
            (Host.gather gather_S2048x100000_S256x1_S2048x256_0_1_n_n_1_1_20481 (m ((c.tc : Thread nD τ).loc main_arg1))
              (broadcastInDim S256x1 ![0] bcast_S256_S256x1_0 (wrapped (m ((c.tc : Thread nD τ).loc main_arg2)))))
            (broadcastInDim S2048x256 ![] bcast_S_S2048x256 (constant (F := Ideal) S_ .f32 0x7FC00000#32)))
          transposes_S2048x256_S256x2048_1_0 := by
  dsimp only [Gen.V, Gen.V0]
  simp only [Gen.hostOps0, Gen.hostOps0_1, List.flatten_cons, List.flatten_nil, List.append_nil, List.cons_append, List.nil_append]
  after_results_simp
  rfl

/-- Under the precondition the second operand array is the transposed gather of `W`'s columns at the wrapped
    indices: the range test holds at every row, so the fill value is never selected. -/
theorem V_tgt (hpre : Cert.Pre_KernelIdeal m) (c : Dev nD) :
    (V m c main_v1 : S256x2048.Idx → EReal)
      = transpose S256x2048 [1, 0]
          (Host.gather gather_S2048x100000_S256x1_S2048x256_0_1_n_n_1_1_20481 (m ((c.tc : Thread nD τ).loc main_arg1))
            (broadcastInDim S256x1 ![0] bcast_S256_S256x1_0 (wrapped (m ((c.tc : Thread nD τ).loc main_arg2)))))
          transposes_S2048x256_S256x2048_1_0 := by
  rw [V_tgt_raw]
  -- the selecting bit is the range test at the element's row, which is 1: the selection is its first operand
  refine congrArg (fun z => transpose S256x2048 [1, 0] z transposes_S2048x256_S256x2048_1_0) (funext fun i => ?_)
  have hm : broadcastInDim S2048x256 ![1] bcast_S256_S2048x256_1 (mask (m ((c.tc : Thread nD τ).loc main_arg2))) i = 1#1 :=
    mask_one _ (idx_range m hpre c) _
  rw [select_apply, hm, select_one]

end Cert.KernelIdeal.Entry

end
-- ==== Proof.Bridge.lean ====
/-
  The kernel's result is the reference's expression.

  Point n of the grid reads block n of each operand array: rows 32·n .. 32·n + 31 of the reshaped `e` and of the
  target. So a point's block total is the block total of the specification at block n, the two cores' running
  sums after their last points are the sums of blocks 0..3 and of blocks 4..7, and together they are the total
  deviation (the rows regrouped into the eight blocks). Both running sums are nonnegative, so scaling each by
  5 / 2^20 and adding is dividing the total by 2^24 and multiplying by 80; and under the precondition the operand
  arrays are the reference's own: the reshaped `e` and the transposed gather of `W` at the wrapped indices.
-/
import proofs.«405690_j5033701671390_3_alg».proof.Proof.KValue
import proofs.«405690_j5033701671390_3_alg».proof.Proof.Entry
import proofs.«405690_j5033701671390_3_alg».proof.Proof.Spec

set_option maxRecDepth 16384

noncomputable section

namespace Cert.KernelIdeal.Bridge

open Cert.KernelIdeal Cert.KernelIdeal.Gen Cert.KernelIdeal.KValue Cert.KernelIdeal.Entry Cert.AbsDev
open Idealize.ShloMosaic Idealize.ShloMosaic.TcCoe Idealize.SL.Sem Idealize.ShloMosaic.ValueIdx

variable (m : (ℓ : Loc nD τ sig) → Buf (Elt Ideal) ℓ)

/-- The two operand arrays as the region finds them, at their literal shapes. -/
abbrev arrE (c : Dev nD) : S256x32x2048.Idx → EReal := V m c main_v2
abbrev arrT (c : Dev nD) : S256x2048.Idx → EReal := V m c main_v1

/-- Both input windows take block index `t` on the row axis and 0 elsewhere — decided over the grid. -/
theorem idx0 (t : Fin cfg0.N) : win0_0.index t 0 = t.val ∧ win0_0.index t 1 = 0 ∧ win0_0.index t 2 = 0 := by
  rcases fin_N0 t with rfl | rfl | rfl | rfl | rfl | rfl | rfl | rfl <;> decide +kernel
theorem idx1 (t : Fin cfg0.N) : win0_1.index t 0 = t.val ∧ win0_1.index t 1 = 0 := by
  rcases fin_N0 t with rfl | rfl | rfl | rfl | rfl | rfl | rfl | rfl <;> decide +kernel

/-- Point `t`'s block of the array is block `t` of the specification: row b of it is row 32·t + b. -/
theorem xblk_eq (c : Dev nD) (t : Fin cfg0.N) (ht : t.val < 8) : xblk m c t = rowsE (arrE m c) ⟨t.val, ht⟩ := by
  obtain ⟨h0, h1, h2⟩ := idx0 t
  funext j
  show ((cfg0.win 0).blk t).view.read (Elt Ideal) (V m c (Pipeline.arrRef spec0 0)) j = _
  rw [View.read_apply]
  show V m c main_v2 _ = V m c main_v2 _
  congr 1
  funext a
  apply Fin.ext
  match a with
  | ⟨0, _⟩ => show win0_0.index t 0 * 32 + 1 * (j 0).val = 32 * t.val + (j 0).val; rw [h0]; omega
  | ⟨1, _⟩ => show win0_0.index t 1 * 32 + 1 * (j 1).val = (j 1).val; rw [h1]; omega
  | ⟨2, _⟩ => show win0_0.index t 2 * 2048 + 1 * (j 2).val = (j 2).val; rw [h2]; omega

/-- The same for the target. -/
theorem yblk_eq (c : Dev nD) (t : Fin cfg0.N) (ht : t.val < 8) : yblk m c t = rowsT (arrT m c) ⟨t.val, ht⟩ := by
  obtain ⟨h0, h1⟩ := idx1 t
  funext j
  show ((cfg0.win 1).blk t).view.read (Elt Ideal) (V m c (Pipeline.arrRef spec0 1)) j = _
  rw [View.read_apply]
  show V m c main_v1 _ = V m c main_v1 _
  congr 1
  funext a
  apply Fin.ext
  match a with
  | ⟨0, _⟩ => show win0_1.index t 0 * 32 + 1 * (j 0).val = 32 * t.val + (j 0).val; rw [h0]; omega
  | ⟨1, _⟩ => show win0_1.index t 1 * 2048 + 1 * (j 1).val = (j 1).val; rw [h1]; omega

/-- A point's block total is the specification's block total at that block. -/
theorem ptTotal_eq (c : Dev nD) (n : ℕ) (h : n < cfg0.N) (h8 : n < 8) :
    ptTotal m c n h = blockTotal (rowsE (arrE m c) ⟨n, h8⟩) (rowsT (arrT m c) ⟨n, h8⟩) := by
  unfold ptTotal
  rw [xblk_eq m c ⟨n, h⟩ h8, yblk_eq m c ⟨n, h⟩ h8]

/-- Every running sum is nonnegative: it starts from zero and adds block totals. -/
theorem run_nonneg (c : Dev nD) : ∀ (n : ℕ) (h : n < cfg0.N), 0 ≤ run m c n h
  | 0, h => by
    rw [run]
    exact add_nonneg le_rfl (blockTotal_nonneg _ _)
  | n + 1, h => by
    rw [run]
    split
    · exact add_nonneg le_rfl (blockTotal_nonneg _ _)
    · exact add_nonneg (run_nonneg c n _) (blockTotal_nonneg _ _)

/-- A point below eight is a point of the grid. -/
theorem ltN (n : ℕ) (h : n < 8) : n < cfg0.N := by rw [show cfg0.N = 8 from N_0]; exact h

/-- The first core's running sum after its last point: its four block totals added in order from zero. -/
theorem run3_unfold (c : Dev nD) :
    run m c 3 lt3 = (((0 + ptTotal m c 0 (ltN 0 (by decide))) + ptTotal m c 1 (ltN 1 (by decide)))
      + ptTotal m c 2 (ltN 2 (by decide))) + ptTotal m c 3 (ltN 3 (by decide)) := rfl

/-- The second core's: it restarts at point 4. -/
theorem run7_unfold (c : Dev nD) :
    run m c 7 lt7 = (((0 + ptTotal m c 4 (ltN 4 (by decide))) + ptTotal m c 5 (ltN 5 (by decide)))
      + ptTotal m c 6 (ltN 6 (by decide))) + ptTotal m c 7 (ltN 7 (by decide)) := rfl

/-- The two cores' running sums together are the total deviation: the rows regrouped into the eight blocks. -/
theorem runs_total (c : Dev nD) : run m c 3 lt3 + run m c 7 lt7 = total (arrE m c) (arrT m c) := by
  rw [total_eq_sum_blocks, Fin.sum_univ_eight, run3_unfold, run7_unfold]
  rw [ptTotal_eq m c 0 _ (by decide), ptTotal_eq m c 1 _ (by decide), ptTotal_eq m c 2 _ (by decide),
    ptTotal_eq m c 3 _ (by decide), ptTotal_eq m c 4 _ (by decide), ptTotal_eq m c 5 _ (by decide),
    ptTotal_eq m c 6 _ (by decide), ptTotal_eq m c 7 _ (by decide)]
  simp only [zero_add, add_assoc]
  rfl

/-- THE KERNEL'S RESULT under the precondition: the total deviation of the reshaped `e` from the transposed gather
    of `W` at the wrapped indices, over the count, times the weight. -/
theorem kres_eq (hpre : Cert.Pre_KernelIdeal m) (c : Dev nD) (i : S_.Idx) :
    kres m c i
      = Ideal.div (total (shapeCast _ (m ((c.tc : Thread nD τ).loc main_arg0)) shapeCasts_S256x32x2048x1_S256x32x2048)
          (transpose S256x2048 [1, 0]
            (Host.gather gather_S2048x100000_S256x1_S2048x256_0_1_n_n_1_1_20481 (m ((c.tc : Thread nD τ).loc main_arg1))
              (broadcastInDim S256x1 ![0] bcast_S256_S256x1_0 (wrapped (m ((c.tc : Thread nD τ).loc main_arg2)))))
            transposes_S2048x256_S256x2048_1_0))
          (Ideal.ofBits .f32 0x4B800000#32) * Ideal.ofBits .f32 0x42A00000#32 := by
  rw [kres_apply, scale_law _ _ (run_nonneg m c 3 lt3) (run_nonneg m c 7 lt7), runs_total]
  show Ideal.div (total (V m c main_v2) (V m c main_v1)) _ * _ = _
  rw [V_e m c, V_tgt m hpre c]

end Cert.KernelIdeal.Bridge

end
-- ==== Proof.RefValue.lean ====
/-
  The reference's result, at the extended reals: the total absolute deviation of the reshaped `e` from the
  transposed gather of `W`'s columns, divided by the count 2^24 and multiplied by 80. The reference subtracts the
  target broadcast along the middle axis, takes absolute values, and sums all three axes at once from zero; a sum
  over a rank-3 index set is the triple sum over its coordinates, which is the total as the specification states it.
-/
import proofs.«405690_j5033701671390_3_alg».proof.Proof.Gen.ReferenceIdeal.Read
import proofs.«405690_j5033701671390_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The two broadcasts of the target, composed, drop the middle coordinate: the element at (b, k, d) is read at (b, d). -/
theorem idx_bcast (b : Fin 256) (k : Fin 32) (d : Fin 2048) :
    idx_main_v9 (idx_main_v10 (ix3 b k d)) = ix2 b d := by
  funext a
  match a with
  | ⟨0, _⟩ => rfl
  | ⟨1, _⟩ => rfl

/-- One term of the reference's sum: the absolute value of the difference, as the larger of it and its negation. -/
theorem term_eq (x0 : (⟨S256x32x2048x1, .f32⟩ : BufTy).Contents (Elt Ideal)) (x1 : (⟨S2048x100000, .f32⟩ : BufTy).Contents (Elt Ideal))
    (x2 : (⟨S256, .i32⟩ : BufTy).Contents (Elt Ideal)) (b : Fin 256) (k : Fin 32) (d : Fin 2048) :
    val_main_v12 (F := Ideal) x0 x1 x2 (ix3 b k d)
      = Cert.AbsDev.dev (val_main_v8 (F := Ideal) x0 (ix3 b k d)) (val_main_v7 (F := Ideal) x1 x2 (ix2 b d)) := by
  rw [val_main_v12_apply, val_main_v11_apply, val_main_v10_apply, val_main_v9_apply, idx_bcast]
  rfl

/-- The sum over the rank-3 index set is the total, coordinate by coordinate. -/
theorem sum_eq (x0 : (⟨S256x32x2048x1, .f32⟩ : BufTy).Contents (Elt Ideal)) (x1 : (⟨S2048x100000, .f32⟩ : BufTy).Contents (Elt Ideal))
    (x2 : (⟨S256, .i32⟩ : BufTy).Contents (Elt Ideal)) :
    ∑ j : S256x32x2048.Idx, val_main_v12 (F := Ideal) x0 x1 x2 j
      = Cert.AbsDev.total (val_main_v8 (F := Ideal) x0) (val_main_v7 (F := Ideal) x1 x2) := by
  rw [Cert.AbsDev.sum_idx3]
  unfold Cert.AbsDev.total
  exact Finset.sum_congr rfl fun b _ => Finset.sum_congr rfl fun k _ => Finset.sum_congr rfl fun d _ =>
    term_eq x0 x1 x2 b k d

/-- The reference's result is the total deviation over the count, times the weight. -/
theorem result_eq (x0 : (⟨S256x32x2048x1, .f32⟩ : BufTy).Contents (Elt Ideal)) (x1 : (⟨S2048x100000, .f32⟩ : BufTy).Contents (Elt Ideal))
    (x2 : (⟨S256, .i32⟩ : BufTy).Contents (Elt Ideal)) (i : S_.Idx) :
    val_main_v15 (F := Ideal) x0 x1 x2 i
      = Ideal.div (Cert.AbsDev.total (val_main_v8 (F := Ideal) x0) (val_main_v7 (F := Ideal) x1 x2))
          (Ideal.ofBits .f32 0x4B800000#32) * Ideal.ofBits .f32 0x42A00000#32 := by
  rw [val_main_v15_apply, val_main_v14_apply, val_main_v13_apply, val_main_cst_apply, val_main_cst_1_apply,
    val_main_cst_2_apply, sum_eq]
  simp only [Ideal.mulf_def, Ideal.hostDivf_def, Ideal.ofBits_def, Ideal.ofBits_zero_f32, zero_add]

end Cert.ReferenceIdeal.RefValue

end
-- ==== Proof.lean ====
/-
  The certificate of a mean-absolute-deviation kernel against its jnp reference, over the extended reals.

  THE CLAIM. Inputs: `e` of shape [256, 32, 2048, 1], `W` of shape [2048, 100000], indices `i` of shape [256].
  With the target T[b, d] = W[d, j[b]], where j[b] is i[b] counted from the end when negative, both programs
  compute 80 · (1 / 2^24) · ∑_{b,k,d} |e[b,k,d,0] − T[b,d]|.
  The reference gathers with the wrapped index and lets the gather clamp an index that is out of range; the
  kernel's host code tests the wrapped index against [0, 99999] and substitutes a fill value for a column whose
  index fails the test. Where an index lies outside [−100000, 100000) the two therefore read different columns; the
  precondition states that every index lies in that range (outside it the reference indexes its array out of
  range), and under it the test always holds and the two targets are one expression.
  The kernel sums the rows in eight blocks of 32, four blocks to each of two cores, each block's middle axis in
  four chunks of eight; each core multiplies its partial sum by 5 / 2^20 = 80 / 2^24 and the host adds the two
  products. Every term |x − y| is nonnegative on the extended reals, so the partial sums are nonnegative, and for
  nonnegative S0, S1: S0 · (5 / 2^20) + S1 · (5 / 2^20) = ((S0 + S1) / 2^24) · 80. No term is assumed finite.

  THE MODULES. Spec: the mathematics (the deviation, the totals, the regroupings, the law). Pieces: what one grid
  point leaves in the accumulator, read off the body's stores. PointValue: a point's arithmetic at the extended
  reals — it adds the block's total. KValue: the accumulator over the grid is the running sum, the output array holds
  the two cores' scaled sums, and the kernel's run ends with their sum. Entry: the operand arrays the region finds,
  under the precondition. Bridge: the kernel's result is the reference's expression. RefValue: the reference's
  result is that expression. The three frame conjuncts are the generated frame runs; the idealization rewrote
  nothing, so its conjunct is trivial.
-/
import proofs.«405690_j5033701671390_3_alg».proof.Defs
import proofs.«405690_j5033701671390_3_alg».proof.Proof.Gen.Kernel
import proofs.«405690_j5033701671390_3_alg».proof.Proof.Gen.Kernel.Skeleton
import proofs.«405690_j5033701671390_3_alg».proof.Proof.Gen.Kernel.Launch
import proofs.«405690_j5033701671390_3_alg».proof.Proof.Gen.Kernel.Points
import proofs.«405690_j5033701671390_3_alg».proof.Proof.Gen.Kernel.Frame
import proofs.«405690_j5033701671390_3_alg».proof.Proof.Gen.KernelIdeal
import proofs.«405690_j5033701671390_3_alg».proof.Proof.Gen.KernelIdeal.Skeleton
import proofs.«405690_j5033701671390_3_alg».proof.Proof.Gen.KernelIdeal.Launch
import proofs.«405690_j5033701671390_3_alg».proof.Proof.Gen.KernelIdeal.Points
import proofs.«405690_j5033701671390_3_alg».proof.Proof.Gen.KernelIdeal.Frame
import proofs.«405690_j5033701671390_3_alg».proof.Proof.Gen.ReferenceIdeal
import proofs.«405690_j5033701671390_3_alg».proof.Proof.Gen.ReferenceIdeal.Run
import proofs.«405690_j5033701671390_3_alg».proof.Proof.Gen.ReferenceIdeal.Read
import proofs.«405690_j5033701671390_3_alg».proof.Proof.Gen.Pre_finite_inputs
import proofs.«405690_j5033701671390_3_alg».proof.Proof.Bridge
import proofs.«405690_j5033701671390_3_alg».proof.Proof.RefValue
import Idealize.ShloMosaic.Adequacy
import Idealize.ShloMosaic.Init

noncomputable section

namespace Cert.Proof

open Idealize.ShloMosaic Idealize.SL.Sem

/-- The reference's target expression is the kernel's: the transposed gather at the wrapped index, each program
    spelling the same operations over its own copies of the shape facts. -/
theorem target_same (x1 : (⟨Cert.ReferenceIdeal.S2048x100000, .f32⟩ : BufTy).Contents (Elt Ideal))
    (x2 : (⟨Cert.ReferenceIdeal.S256, .i32⟩ : BufTy).Contents (Elt Ideal)) :
    Cert.ReferenceIdeal.Read.val_main_v7 (F := Ideal) x1 x2
      = transpose Cert.KernelIdeal.S256x2048 [1, 0]
          (Host.gather Cert.KernelIdeal.gather_S2048x100000_S256x1_S2048x256_0_1_n_n_1_1_20481 x1
            (broadcastInDim Cert.KernelIdeal.S256x1 ![0] Cert.KernelIdeal.Facts₀.bcast_S256_S256x1_0 (Cert.KernelIdeal.Entry.wrapped x2)))
          Cert.KernelIdeal.Facts₀.transposes_S2048x256_S256x2048_1_0 := rfl

/-- At the extended reals both programs, run from memories that agree on the arguments, end with the same result:
    the kernel's run ends at the two cores' scaled sums added, which under the precondition is the total deviation
    over the count times the weight; the reference's run ends at that expression. -/
theorem algebraic : Cert.algebraic_KernelIdeal_ReferenceIdeal := by
  intro m ρ m' ρ' hpre hagree
  refine ⟨fun c => Cert.KernelIdeal.KValue.kres m c, Cert.KernelIdeal.KValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  funext i
  rw [Cert.ReferenceIdeal.RefValue.result_eq, target_same]
  exact (Cert.KernelIdeal.Bridge.kres_eq m hpre c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
